-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x56x56x256 : Shape := ⟨4, ![64, 56, 56, 256]⟩
abbrev S_ : Shape := ⟨0, ![]⟩

class Facts : Prop where
  bcast_S_S64x56x56x256 : S_.BroadcastsInDim S64x56x56x256 (![] : Fin 0 → Fin S64x56x56x256.rank)
  reducesTo_S64x56x56x256_S_d0_1_2_3 : S64x56x56x256.ReducesTo [0, 1, 2, 3] S_
  h_S_ : 0 < S_.numel

variable [Facts]

def fn {F : FTy → Type} [FloatOps F] (main_arg0 : FVec F S64x56x56x256 .f32) : IVec S_ 1 :=
  let main_v0 : FVec F S64x56x56x256 .f32 := Host.absf main_arg0
  let main_cst : FVec F S_ .f32 := constant S_ .f32 0x7F800000#32
  let main_v1 : FVec F S64x56x56x256 .f32 := broadcastInDim S64x56x56x256 ![] bcast_S_S64x56x56x256 main_cst
  let main_v2 : IVec S64x56x56x256 1 := cmpf .olt main_v0 main_v1
  let main_c : IVec S_ 1 := constantI S_ 1 1#1
  let main_v3 : IVec S_ 1 := (fun x v => Host.reduce IntOp.andi x v reducesTo_S64x56x56x256_S_d0_1_2_3 h_S_) main_v2 main_c
  main_v3
-- ==== Kernel.lean ====
abbrev S64x56x56x256 : Shape := ⟨4, ![64, 56, 56, 256]⟩
abbrev S64x3136x256 : Shape := ⟨3, ![64, 3136, 256]⟩
abbrev S64x256 : Shape := ⟨2, ![64, 256]⟩
abbrev S8x1568x256 : Shape := ⟨3, ![8, 1568, 256]⟩
abbrev S8x256 : Shape := ⟨2, ![8, 256]⟩

abbrev nBuf : Space → Nat
  | .hbm => 3
  | .vmem => 5
  | .smem => 0
  | _ => 0

abbrev bufTy : (tb : Table) → Fin (tcTables nBuf tb) → BufTy
  | .hbm, ⟨0, _⟩ => ⟨S64x56x56x256, .f32⟩
  | .hbm, ⟨1, _⟩ => ⟨S64x3136x256, .f32⟩
  | .hbm, ⟨2, _⟩ => ⟨S64x256, .f32⟩
  | .local _ .vmem, ⟨0, _⟩ => ⟨S8x1568x256, .f32⟩
  | .local _ .vmem, ⟨1, _⟩ => ⟨S8x1568x256, .f32⟩
  | .local _ .vmem, ⟨2, _⟩ => ⟨S8x256, .f32⟩
  | .local _ .vmem, ⟨3, _⟩ => ⟨S8x256, .f32⟩
  | .local _ .vmem, ⟨4, _⟩ => ⟨S8x256, .f32⟩
  | _, _ => ⟨S64x56x56x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x1568x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  shapeCasts_S64x56x56x256_S64x3136x256 : S64x56x56x256.ShapeCasts S64x3136x256
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S8x1568x256_S8x1568x256_0_0_0 : ∀ a, (![0, 0, 0] : Fin 3 → Nat) a + S8x1568x256.size a ≤ S8x1568x256.size a
  h_S8x1568x256 : 0 < S8x1568x256.numel
  shapeCasts_S8x1568x256_S8x1568x256 : S8x1568x256.ShapeCasts S8x1568x256
  reduces_S8x1568x256_S8x256 : S8x1568x256.Reduces [1] S8x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1568x256.size a ≤ S64x3136x256.size a
  hwx0_0 : ∀ i : grid0.Coords, EltTy.bits .f32 = 32 ∨ (Rect.block (s := S64x3136x256) S8x1568x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256.size a ≤ S64x256.size a
  hwx0_1 : ∀ i : grid0.Coords, EltTy.bits .f32 = 32 ∨ (Rect.block (s := S64x256) S8x256.size (cc0_transform_1 i) (hinb0_1 i)).WholeWords (EltTy.packing .f32)

variable [Facts₀]

abbrev win0_0 : Pipeline.Window sig grid0 :=
  Pipeline.Window.ofSpec (Memref.whole main_v0) S8x1568x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S64x56x56x256 : Shape := ⟨4, ![64, 56, 56, 256]⟩
abbrev S_ : Shape := ⟨0, ![]⟩
abbrev S64x256 : Shape := ⟨2, ![64, 256]⟩

abbrev nBuf : Space → Nat
  | .hbm => 3
  | .vmem => 0
  | .smem => 0
  | _ => 0

abbrev bufTy : (tb : Table) → Fin (tcTables nBuf tb) → BufTy
  | .hbm, ⟨0, _⟩ => ⟨S64x56x56x256, .f32⟩
  | .hbm, ⟨1, _⟩ => ⟨S_, .f32⟩
  | .hbm, ⟨2, _⟩ => ⟨S64x256, .f32⟩
  | _, _ => ⟨S64x56x56x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  reducesTo_S64x56x56x256_S64x256_d1_2 : S64x56x56x256.ReducesTo [1, 2] S64x256
  h_S_ : 0 < S_.numel

variable [Facts₀]

class Facts : Prop extends Facts₀ where

variable [Facts]
-- ==== Proof.BodyPieces.lean ====
/-
  What one run of the pooling body leaves behind, as values.

  The body keeps a running maximum `acc` (an [8, 256] scratch) over the spatial blocks of eight batch rows.
  With `rowmax x` the maximum over the 1568 spatial positions of an [8, 1568, 256] block `x` (folded from -inf)
  and `step a x = max a (rowmax x)` (the generated payload `k0_pay2`), and `neg` the block of -inf (`k0_pay1`):
    * at a first spatial block the body first resets `acc` to `neg`, then reads it back and stores
      `step neg x`: the scratch ends at `step neg x`, whatever it held before;
    * at a last spatial block the body stores `step acc x` into the scratch, reads the scratch back and writes it to
      the output block: both end at `step acc x`.
  Each store covers its whole buffer, so the last store decides the contents, and a read after a covering store
  sees that store's value. The three statements hold for any float instance.
-/
import proofs.«174999_j22754736734795_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

/-- The zero offsets of a rank-2 and of a rank-3 whole-buffer access. -/
theorem hz2 : (![0, 0] : Fin 2 → Nat) = fun _ => 0 := funext fun a => by fin_cases a <;> rfl
theorem hz3 : (![0, 0, 0] : Fin 3 → Nat) = fun _ => 0 := funext fun a => by fin_cases a <;> rfl

/-- First spatial block: the scratch ends at `step neg x0` (the reset, read back, joined with the block's maximum). -/
theorem scratch_first (c : Dev nD) (i : grid0.Coords) (a2 : Memref sig .tc .vmem S8x1568x256 .f32) (h2 : a2.IsWhole)
    (a3 : Memref sig .tc .vmem S8x256 .f32) (h3 : a3.IsWhole) (a4 : Memref sig .tc .vmem S8x256 .f32) (h4 : a4.IsWhole)
    (hc0 : cond0_0 i) (hc1 : ¬cond0_1 i) (x0 : Vec F S8x1568x256 .f32) :
    sout0_A_0 c i a2 h2 a3 h3 a4 h4 hc0 hc1 x0 = k0_pay2 (k0_pay1 (F := F)) x0 := by
  unfold sout0_A_0
  rw [View.read_writes_eq_canon _ _ _ (scover0_A_0 c i a2 h2 a3 h3 a4 h4 hc0 hc1 x0)]
  unfold kernelRun0_A
  dsimp only
  sl_unfold_words
  rw [View.canon_cons_unit_zero (S := S8x256) hz2]
  simp only [View.readAt_eq_ld, h2.read_unread, View.ld_unit_zero (S := S8x1568x256) hz3,
    View.readCov_unit_zero (S := S8x256) _ hz2]

/-- Last spatial block: the scratch ends at `step xs0 x0`, over what the block before left (`xs0`). -/
theorem scratch_last (c : Dev nD) (i : grid0.Coords) (a2 : Memref sig .tc .vmem S8x1568x256 .f32) (h2 : a2.IsWhole)
    (a3 : Memref sig .tc .vmem S8x256 .f32) (h3 : a3.IsWhole) (a4 : Memref sig .tc .vmem S8x256 .f32) (h4 : a4.IsWhole)
    (hc0 : ¬cond0_0 i) (hc1 : cond0_1 i) (x0 : Vec F S8x1568x256 .f32) (xs0 : Vec F S8x256 .f32) :
    sout0_B_0 c i a2 h2 a3 h3 a4 h4 hc0 hc1 x0 xs0 = k0_pay2 xs0 x0 := by
  unfold sout0_B_0
  rw [View.read_writes_eq_canon _ _ _ (scover0_B_0 c i a2 h2 a3 h3 a4 h4 hc0 hc1 x0 xs0)]
  unfold kernelRun0_B
  dsimp only
  sl_unfold_words
  rw [View.canon_unit_zero hz2]
  simp only [View.readAt_eq_ld, h2.read_unread, h4.read_unread, View.ld_unit_zero (S := S8x1568x256) hz3,
    View.ld_unit_zero (S := S8x256) hz2]

/-- Last spatial block: the output block ends at the same `step xs0 x0` (the scratch read back after its store). -/
theorem out_last (c : Dev nD) (i : grid0.Coords) (a2 : Memref sig .tc .vmem S8x1568x256 .f32) (h2 : a2.IsWhole)
    (a3 : Memref sig .tc .vmem S8x256 .f32) (h3 : a3.IsWhole) (a4 : Memref sig .tc .vmem S8x256 .f32) (h4 : a4.IsWhole)
    (hc0 : ¬cond0_0 i) (hc1 : cond0_1 i) (x0 : Vec F S8x1568x256 .f32) (xs0 : Vec F S8x256 .f32) :
    out0_B_1 c i a2 h2 a3 h3 a4 h4 hc0 hc1 x0 xs0 = k0_pay2 xs0 x0 := by
  unfold out0_B_1
  rw [View.read_writes_eq_canon _ _ _ (cover0_B_1 c i a2 h2 a3 h3 a4 h4 hc0 hc1 x0 xs0)]
  unfold kernelRun0_B
  dsimp only
  sl_unfold_words
  rw [View.canon_unit_zero hz2, View.readCov_unit_zero (S := S8x256) _ hz2]
  simp only [View.readAt_eq_ld, h2.read_unread, h4.read_unread, View.ld_unit_zero (S := S8x1568x256) hz3,
    View.ld_unit_zero (S := S8x256) hz2]

end Cert.KernelIdeal.Pieces

end
-- ==== Proof.LibMaxFold.lean ====
/-
  A maximum taken in two halves is the maximum of the whole.

  Over any linear order: fold `max` from a start value over one family, fold it again (from the same start value) over
  a second family, and take the larger of the two results (the first already joined with the start value); the
  outcome is the fold of `max` from that start value over any third family that has the same set of values as the
  first two together. Only that `max` is the least upper bound is used, so nothing is asked of the start value
  (it need not be a bottom element), of the index types, or of how often a value is repeated.
-/
import Mathlib.Data.Finset.Fold

namespace Cert.LibMaxFold

/-- The start value lies below the fold of `max` from it. -/
theorem init_le_fold_max {α ι : Type*} [LinearOrder α] (init : α) (S : Finset ι) (x : ι → α) :
    init ≤ S.fold max init x :=
  (Finset.le_fold_max _).2 (Or.inl le_rfl)

/-- A member's value lies below the fold of `max` over the family. -/
theorem le_fold_max_of_mem {α ι : Type*} [LinearOrder α] (init : α) (S : Finset ι) (x : ι → α) {i : ι} (hi : i ∈ S) :
    x i ≤ S.fold max init x :=
  (Finset.le_fold_max _).2 (Or.inr ⟨i, hi, le_rfl⟩)

/-- THE LAW. `f` over `A` and `g` over `B` each take only values of `x` over `S` (`hf`, `hg`), and every value of `x`
    over `S` is taken by `f` on `A` or by `g` on `B` (`hx`): then the running maximum through `A` and then through `B`
    is the maximum over `S`. -/
theorem max_fold_two {α ι κ : Type*} [LinearOrder α] (init : α) (S : Finset ι) (x : ι → α)
    (A B : Finset κ) (f g : κ → α)
    (hf : ∀ s ∈ A, ∃ i ∈ S, f s = x i) (hg : ∀ s ∈ B, ∃ i ∈ S, g s = x i)
    (hx : ∀ i ∈ S, (∃ s ∈ A, x i = f s) ∨ (∃ s ∈ B, x i = g s)) :
    max (max init (A.fold max init f)) (B.fold max init g) = S.fold max init x := by
  have hinit : init ≤ S.fold max init x := init_le_fold_max init S x
  apply le_antisymm
  · refine max_le (max_le hinit ((Finset.fold_max_le _).2 ⟨hinit, fun s hs => ?_⟩))
      ((Finset.fold_max_le _).2 ⟨hinit, fun s hs => ?_⟩)
    · obtain ⟨i, hi, e⟩ := hf s hs
      rw [e]; exact le_fold_max_of_mem init S x hi
    · obtain ⟨i, hi, e⟩ := hg s hs
      rw [e]; exact le_fold_max_of_mem init S x hi
  · refine (Finset.fold_max_le _).2 ⟨le_max_of_le_left (le_max_left _ _), fun i hi => ?_⟩
    rcases hx i hi with ⟨s, hs, e⟩ | ⟨s, hs, e⟩
    · rw [e]
      exact le_max_of_le_left (le_max_of_le_right (le_fold_max_of_mem init A f hs))
    · rw [e]
      exact le_max_of_le_right (le_fold_max_of_mem init B g hs)

end Cert.LibMaxFold
-- ==== Proof.PoolSpec.lean ====
/-
  Global max pooling as one function, and why two half-maxima make it.

  The input is an array `x[b, h, w, c]` of extents 64 x 56 x 56 x 256. The pooled value at `(b, c)` is the maximum,
  folded from a start value `init`, of `x` over the 56 * 56 positions that share `b` and `c` (`cell`, `pooled`).

  Flattening the two spatial axes into one axis of 3136 = 56 * 56 positions keeps the row-major position of every
  entry: position `(b, s, c)` of the flat array is position `(b, s / 56, s % 56, c)` of `x`, and the flat positions
  `s < 1568` and `1568 <= s < 3136` split each cell into two halves. The running maximum through the first half and
  then through the second half is the maximum over the cell (`two_halves`): the two halves take exactly the cell's
  values, so the law of a maximum taken in two parts applies. Nothing is asked of the entries (they may be infinite)
  nor of the start value.
-/
import Idealize.ShloMosaic.Lib.ValueIdx
import proofs.«174999_j22754736734795_1_alg».proof.Proof.LibMaxFold

noncomputable section

namespace Cert.Pool

open Idealize.ShloMosaic Idealize.ShloMosaic.ValueIdx

/-- The input's shape, its flattening over the spatial axes, and the result's shape. -/
abbrev S4 : Shape := ⟨4, ![64, 56, 56, 256]⟩
abbrev S3 : Shape := ⟨3, ![64, 3136, 256]⟩
abbrev S2 : Shape := ⟨2, ![64, 256]⟩

/-- The value -inf, as both programs spell it: the f32 word `0xFF800000` read as an extended real. -/
abbrev negInf : EReal := FloatOps.ofBits (F := Ideal) .f32 0xFF800000#32

/-- The input positions pooled into result position `j = (b, c)`: those with the same batch and channel. -/
def cell (j : S2.Idx) : Finset S4.Idx :=
  Finset.univ.filter fun i => (i 0).val = (j 0).val ∧ (i 3).val = (j 1).val

/-- Global max pooling from the start value `init`: at `(b, c)` the maximum of `x` over the cell of `(b, c)`. -/
def pooled (init : EReal) (x : S4.Idx → EReal) : S2.Idx → EReal := fun j => (cell j).fold max init x

/-- Flat spatial position `s` of the first half, and of the second half. -/
def lo (s : Fin 1568) : Fin 3136 := ⟨s.val, by have := s.isLt; omega⟩
def hi (s : Fin 1568) : Fin 3136 := ⟨1568 + s.val, by have := s.isLt; omega⟩

/-- Flat position `(b, s, c)` as a position of the input: `(b, s / 56, s % 56, c)`. -/
def unflat (b : Fin 64) (s : Fin 3136) (c : Fin 256) : S4.Idx :=
  ix4 b ⟨s.val / 56, by have := s.isLt; omega⟩ ⟨s.val % 56, by omega⟩ c

/-- It lies in the cell of `(b, c)`. -/
theorem unflat_mem_cell (b : Fin 64) (s : Fin 3136) (c : Fin 256) : unflat b s c ∈ cell (ix2 b c) :=
  Finset.mem_filter.2 ⟨Finset.mem_univ _, rfl, rfl⟩

/-- It has the row-major position of `(b, s, c)`: `((b * 56 + s / 56) * 56 + s % 56) * 256 + c = (b * 3136 + s) * 256 + c`. -/
theorem rowMajor_unflat (b : Fin 64) (s : Fin 3136) (c : Fin 256) :
    (S4.rowMajor (unflat b s c)).val = (S3.rowMajor (ix3 b s c)).val := by
  rw [Shape.rowMajor_val_four, Shape.rowMajor_val_three]
  show ((b.val * 56 + s.val / 56) * 56 + s.val % 56) * 256 + c.val = (b.val * 3136 + s.val) * 256 + c.val
  omega

/-- A position `i = (b, h, w, c)` of the cell of `(b, c)` has the row-major position of the flat `(b, 56 h + w, c)`. -/
theorem rowMajor_of_mem_cell (b : Fin 64) (c : Fin 256) (i : S4.Idx) (hi : i ∈ cell (ix2 b c)) (s : Fin 3136)
    (hs : s.val = (i 1).val * 56 + (i 2).val) : (S4.rowMajor i).val = (S3.rowMajor (ix3 b s c)).val := by
  obtain ⟨hb, hc⟩ := (Finset.mem_filter.1 hi).2
  have hb' : (i 0).val = b.val := hb
  have hc' : (i 3).val = c.val := hc
  rw [Shape.rowMajor_val_four, Shape.rowMajor_val_three]
  show (((i 0).val * 56 + (i 1).val) * 56 + (i 2).val) * 256 + (i 3).val = (b.val * 3136 + s.val) * 256 + c.val
  rw [hs, hb', hc']
  omega

/-- THE TWO HALVES. `X` is the flattened input (it reads `x` at the same row-major position, `hX`). At every `(b, c)`,
    the running maximum of `X[b, ·, c]` through the first 1568 flat positions and then through the last 1568 is the
    pooled value of `x` at `(b, c)`. -/
theorem two_halves (init : EReal) (x : S4.Idx → EReal) (X : S3.Idx → EReal)
    (hX : ∀ (j : S3.Idx) (i : S4.Idx), (S4.rowMajor i).val = (S3.rowMajor j).val → X j = x i)
    (b : Fin 64) (c : Fin 256) :
    max (max init ((Finset.univ : Finset (Fin 1568)).fold max init fun s => X (ix3 b (lo s) c)))
        ((Finset.univ : Finset (Fin 1568)).fold max init fun s => X (ix3 b (hi s) c))
      = pooled init x (ix2 b c) := by
  refine Cert.LibMaxFold.max_fold_two init (cell (ix2 b c)) x Finset.univ Finset.univ
    (fun s => X (ix3 b (lo s) c)) (fun s => X (ix3 b (hi s) c)) ?_ ?_ ?_
  · intro s _
    exact ⟨unflat b (lo s) c, unflat_mem_cell b (lo s) c, hX _ _ (rowMajor_unflat b (lo s) c)⟩
  · intro s _
    exact ⟨unflat b (hi s) c, unflat_mem_cell b (hi s) c, hX _ _ (rowMajor_unflat b (hi s) c)⟩
  · intro i hi
    have h1 : (i 1).val < 56 := (i 1).isLt
    have h2 : (i 2).val < 56 := (i 2).isLt
    by_cases hs : (i 1).val * 56 + (i 2).val < 1568
    · refine Or.inl ⟨⟨(i 1).val * 56 + (i 2).val, hs⟩, Finset.mem_univ _, (hX _ _ ?_).symm⟩
      exact rowMajor_of_mem_cell b c i hi _ rfl
    · refine Or.inr ⟨⟨(i 1).val * 56 + (i 2).val - 1568, by omega⟩, Finset.mem_univ _, (hX _ _ ?_).symm⟩
      refine rowMajor_of_mem_cell b c i hi _ ?_
      show 1568 + ((i 1).val * 56 + (i 2).val - 1568) = (i 1).val * 56 + (i 2).val
      omega

end Cert.Pool

end
-- ==== Proof.StepValue.lean ====
/-
  One step of the running maximum, read at an entry, over the extended reals.

  `step a x` (the generated payload `k0_pay2`) of an [8, 256] accumulator `a` and an [8, 1568, 256] block `x` is, at row
  `p` and channel `q`, `max (a[p, q]) (max over s < 1568 of x[p, s, q], folded from -inf)`; and the reset block `neg`
  (`k0_pay1`) is -inf everywhere. A cast of a block to its own shape changes nothing; a lane reduction over the middle
  axis reads the block at `(p, s, q)` for each `s`.
-/
import proofs.«174999_j22754736734795_1_alg».proof.Proof.Gen.KernelIdeal.Skeleton
import proofs.«174999_j22754736734795_1_alg».proof.Proof.PoolSpec
import Idealize.ShloMosaic.Lib.ValueIdx
import Idealize.ShloMosaic.Lib.Pipeline.Value
import Idealize.ShloMosaic.PureOps.Ideal.Laws

noncomputable section

namespace Cert.KernelIdeal.StepValue

open Cert.KernelIdeal Cert.KernelIdeal.Gen Cert.Pool
open Idealize.ShloMosaic Idealize.ShloMosaic.ValueIdx

/-- The reset block is -inf at every entry. -/
theorem neg_apply (j : S8x256.Idx) : k0_pay1 (F := Ideal) j = negInf := by
  unfold k0_pay1
  rw [shapeCast_self]
  rfl

/-- The middle-axis index inserted into `(p, q)` is `(p, s, q)`. -/
theorem lift_eq (h : S8x1568x256.Reduces [1] S8x256) (p : Fin 8) (q : Fin 256) (s : Fin 1568) :
    h.lift (ix2 p q) s = ix3 p s q :=
  funext fun a => Fin.ext (by
    match a with
    | ⟨0, _⟩ => rfl
    | ⟨1, _⟩ => rfl
    | ⟨2, _⟩ => rfl)

/-- One step at an entry: the accumulator's entry joined with the block's maximum over the middle axis. -/
theorem step_apply (a : FVec Ideal S8x256 .f32) (x : FVec Ideal S8x1568x256 .f32) (p : Fin 8) (q : Fin 256) :
    k0_pay2 (F := Ideal) a x (ix2 p q)
      = max (a (ix2 p q)) ((Finset.univ : Finset (Fin 1568)).fold max negInf fun s => x (ix3 p s q)) := by
  unfold k0_pay2
  dsimp only
  rw [shapeCast_self, shapeCast_self]
  refine congrArg (max (a (ix2 p q))) ?_
  refine (Ideal.multiReduction_maximumf_single x 0xFF800000#32 Gen.reduces_S8x1568x256_S8x256 _ _ (ix2 p q)).trans ?_
  exact congrArg (fun f => Finset.fold max negInf f (Finset.univ : Finset (Fin 1568)))
    (funext fun s => congrArg x (lift_eq Gen.reduces_S8x1568x256_S8x256 p q s))

end Cert.KernelIdeal.StepValue

end
-- ==== Proof.KernelValue.lean ====
/-
  What the pooling kernel leaves in its result array, over the extended reals.

  The grid is 8 x 2, walked row-major: point `t` works on the eight batch rows `8 (t / 2) .. 8 (t / 2) + 7` and on the
  spatial half `t % 2` (flat positions `1568 (t % 2) .. 1568 (t % 2) + 1567`) of the flattened input. The result block
  of those eight rows is written back after the odd points only. At an odd point `t` the output block is
  `step (step neg (block at t - 1)) (block at t)`: the even point before it reset the accumulator and took the first
  half, the odd point takes the second half over what the even point left. At row `p`, channel `q` this is the running
  maximum through the first and then the second half of the flat positions of batch row `8 (t / 2) + p`, which is the
  pooled value (PoolSpec's `two_halves`). The sixteen points' eight write-backs cover the 64 x 256 result.
-/
import proofs.«174999_j22754736734795_1_alg».proof.Proof.Gen.KernelIdeal.Value
import proofs.«174999_j22754736734795_1_alg».proof.Proof.BodyPieces
import proofs.«174999_j22754736734795_1_alg».proof.Proof.StepValue
import proofs.«174999_j22754736734795_1_alg».proof.Proof.PoolSpec
import Idealize.ShloMosaic.Lib.Pipeline.Value
import Idealize.ShloMosaic.Lib.StableHlo.Run

set_option maxRecDepth 16384

noncomputable section

namespace Cert.KernelIdeal.PoolValue

open Cert.KernelIdeal Cert.KernelIdeal.Gen Cert.KernelIdeal.Value Cert.Pool
open Idealize.ShloMosaic Idealize.ShloMosaic.TcCoe Idealize.ShloMosaic.ValueIdx Idealize.SL.Sem
open Idealize.ShloMosaic.StableHlo
open Idealize.ShloMosaic.Pipeline (Dat)

variable (m : (ℓ : Loc nD τ sig) → Buf (Elt Ideal) ℓ) (ρ : Dev nD → PrngReg)

/-- The argument array, and the flattened array the region reads, by their literal types. -/
abbrev xarg (c : Dev nD) : S4.Idx → EReal := m ((c : Thread nD τ).loc main_arg0)
abbrev xflat (c : Dev nD) : S3.Idx → EReal := V m c main_v0

/-- The input block at point `t`, by its literal type. -/
abbrev xblk (c : Dev nD) (t : Fin cfg0.N) : FVec Ideal S8x1568x256 .f32 := iblk m c 0 t

/-- The flattened array is the reshape of the argument. -/
theorem xflat_eq (c : Dev nD) :
    xflat m c = shapeCast S64x3136x256 (xarg m c) Gen.shapeCasts_S64x56x56x256_S64x3136x256 := by
  show (V m c main_v0 : S3.Idx → EReal) = _
  dsimp only [Gen.V, Gen.hostOps0]
  after_results
  rfl

/-- So it reads the argument at the same row-major position. -/
theorem xflat_read (c : Dev nD) (j : S3.Idx) (i : S4.Idx) (h : (S4.rowMajor i).val = (S3.rowMajor j).val) :
    xflat m c j = xarg m c i := by
  rw [xflat_eq]
  exact shapeCast_apply _ _ j i h

/-- The printed index maps over the grid: the input's block index is `(t / 2, t % 2, 0)`, the output's `(t / 2, 0)`. -/
theorem idx_facts : ∀ t : Fin cfg0.N,
    win0_0.index t (0 : Fin 3) = t.val / 2 ∧ win0_0.index t (1 : Fin 3) = t.val % 2 ∧ win0_0.index t (2 : Fin 3) = 0
    ∧ win0_1.index t (0 : Fin 2) = t.val / 2 ∧ win0_1.index t (1 : Fin 2) = 0 :=
  (by decide +kernel : ∀ t : Fin grid0.N, _)

/-- An entry of the input block at point `t` is the flattened array at batch row `8 (t / 2) + p` and flat position
    `1568 (t % 2) + s`. -/
theorem xblk_apply (c : Dev nD) (t : Fin cfg0.N) (p : Fin 8) (s : Fin 1568) (q : Fin 256) (b : Fin 64) (s' : Fin 3136)
    (hb : b.val = 8 * (t.val / 2) + p.val) (hs : s'.val = 1568 * (t.val % 2) + s.val) :
    xblk m c t (ix3 p s q) = xflat m c (ix3 b s' q) := by
  obtain ⟨e0, e1, e2, -, -⟩ := idx_facts t
  show V m c main_v0 (((cfg0.win 0).blk t).view.emb (ix3 p s q)) = V m c main_v0 (ix3 b s' q)
  refine congrArg (V m c main_v0) ?_
  funext a
  apply Fin.ext
  match a with
  | ⟨0, _⟩ => show win0_0.index t (0 : Fin 3) * 8 + 1 * p.val = b.val; rw [e0, hb]; omega
  | ⟨1, _⟩ => show win0_0.index t (1 : Fin 3) * 1568 + 1 * s.val = s'.val; rw [e1, hs]; omega
  | ⟨2, _⟩ => show win0_0.index t (2 : Fin 3) * 256 + 1 * q.val = q.val; rw [e2]; omega

/-- The result array: the pooled value of the argument, from -inf. -/
abbrev result (c : Dev nD) : Buf (Elt Ideal) ((c : Thread nD τ).loc main_v1) := pooled negInf (xarg m c)

/-- WHAT AN ODD POINT WRITES BACK is its block of the pooled array. -/
theorem flushed_eq (c : Dev nD) (t : Fin cfg0.N) (hf : (cfg0.win 1).flush t = true) :
    (dats m 0 c).flushed 1 t = ((cfg0.win 1).blk t).view.read (Elt Ideal) (result m c) := by
  have hN : t.val < 16 := lt_of_lt_of_eq t.isLt (show cfg0.N = 16 from N_0)
  have h1 : t.val % 2 = 1 := (flush0_1 t).mp hf
  have h0 : ¬t.val % 2 = 0 := by omega
  have hlt : t.val - 1 < cfg0.N := Nat.lt_of_le_of_lt (Nat.sub_le _ _) t.isLt
  have h0' : (⟨t.val - 1, hlt⟩ : Fin cfg0.N).val % 2 = 0 := by show (t.val - 1) % 2 = 0; omega
  have h1' : ¬(⟨t.val - 1, hlt⟩ : Fin cfg0.N).val % 2 = 1 := by show ¬(t.val - 1) % 2 = 1; omega
  rw [flushed1_B m c t h0 h1, Pieces.out_last]
  rw [outsAt0_A m c ⟨t.val - 1, hlt⟩ h0' h1']
  dsimp only
  rw [Pieces.scratch_first]
  obtain ⟨-, -, -, e3, e4⟩ := idx_facts t
  funext j
  obtain ⟨p, q, rfl⟩ : ∃ (p : Fin 8) (q : Fin 256), j = ix2 p q := ⟨j 0, j 1, eq_ix2 j⟩
  have hp : p.val < 8 := p.isLt
  let b : Fin 64 := ⟨8 * (t.val / 2) + p.val, by omega⟩
  show k0_pay2 (F := Ideal) (k0_pay2 (F := Ideal) (k0_pay1 (F := Ideal)) (xblk m c ⟨t.val - 1, hlt⟩)) (xblk m c t) (ix2 p q)
    = pooled negInf (xarg m c) (((cfg0.win 1).blk t).view.emb (ix2 p q))
  have eR : ((cfg0.win 1).blk t).view.emb (ix2 p q) = (ix2 b q : S2.Idx) := by
    funext a
    apply Fin.ext
    match a with
    | ⟨0, _⟩ => show win0_1.index t (0 : Fin 2) * 8 + 1 * p.val = 8 * (t.val / 2) + p.val; rw [e3]; omega
    | ⟨1, _⟩ => show win0_1.index t (1 : Fin 2) * 256 + 1 * q.val = q.val; rw [e4]; omega
  rw [eR]
  refine (StepValue.step_apply (k0_pay2 (F := Ideal) (k0_pay1 (F := Ideal)) (xblk m c ⟨t.val - 1, hlt⟩)) (xblk m c t) p q).trans ?_
  rw [StepValue.step_apply (k0_pay1 (F := Ideal)) (xblk m c ⟨t.val - 1, hlt⟩) p q, StepValue.neg_apply]
  have eLo : (fun s : Fin 1568 => xblk m c ⟨t.val - 1, hlt⟩ (ix3 p s q)) = fun s => xflat m c (ix3 b (lo s) q) :=
    funext fun s => xblk_apply m c ⟨t.val - 1, hlt⟩ p s q b (lo s)
      (by show 8 * (t.val / 2) + p.val = 8 * ((t.val - 1) / 2) + p.val; omega)
      (by show s.val = 1568 * ((t.val - 1) % 2) + s.val; omega)
  have eHi : (fun s : Fin 1568 => xblk m c t (ix3 p s q)) = fun s => xflat m c (ix3 b (hi s) q) :=
    funext fun s => xblk_apply m c t p s q b (hi s)
      (by show 8 * (t.val / 2) + p.val = 8 * (t.val / 2) + p.val; rfl)
      (by show 1568 + s.val = 1568 * (t.val % 2) + s.val; omega)
  rw [eLo, eHi]
  exact two_halves negInf (xarg m c) (xflat m c) (xflat_read m c) b q

/-- An index of the result array is in point `t`'s block iff each coordinate is in the block's range on its axis. -/
theorem mem_blk (t : Fin cfg0.N) (i : S64x256.Idx) :
    i ∈ ((cfg0.win 1).blk t).view.set ↔ ∀ a : Fin 2, win0_1.index t a * S8x256.size a ≤ (i a).val ∧ (i a).val < win0_1.index t a * S8x256.size a + S8x256.size a := by
  show i ∈ ((View.whole main_v1).slice (win0_1.rect t)).set ↔ _
  rw [View.set_slice_whole, Rect.mem_set_unit]
  exact Iff.rfl

/-- THE RESULT ARRAY after the run is the pooled array: row `r` lies in the block written back at point `2 (r / 8) + 1`. -/
theorem final (c : Dev nD) : (dats m 0 c).arrAt 1 cfg0.N = result m c :=
  (dats m 0 c).arrAt_eq_of_cover 1 (result m c) (flushed_eq m c) fun i => by
    have hi0 : (i 0).val < 64 := (i 0).isLt
    have hi1 : (i 1).val < 256 := (i 1).isLt
    let t : Fin cfg0.N := ⟨2 * ((i 0).val / 8) + 1, by rw [show cfg0.N = 16 from N_0]; omega⟩
    obtain ⟨-, -, -, e3, e4⟩ := idx_facts t
    have e3' : win0_1.index t (0 : Fin 2) = (i 0).val / 8 := by rw [e3]; show (2 * ((i 0).val / 8) + 1) / 2 = _; omega
    refine ⟨t, (flush0_1 t).mpr (by show (2 * ((i 0).val / 8) + 1) % 2 = 1; omega), ?_⟩
    rw [mem_blk]
    intro a
    match a with
    | ⟨0, _⟩ => show win0_1.index t (0 : Fin 2) * 8 ≤ (i 0).val ∧ (i 0).val < win0_1.index t (0 : Fin 2) * 8 + 8; rw [e3']; omega
    | ⟨1, _⟩ => show win0_1.index t (1 : Fin 2) * 256 ≤ (i 1).val ∧ (i 1).val < win0_1.index t (1 : Fin 2) * 256 + 256; rw [e4]; omega

/-- The run, read: the result array at the pooled array, the argument unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.PoolValue

end
-- ==== Proof.RefValue.lean ====
/-
  The reference computes the pooled value.

  `jnp.max(inputs, axis=(1, 2))` is one reduction over the two spatial axes, folded from -inf. A reduction with a
  commutative and associative body is, at a result position, the fold over the SET of source positions that drop to
  it; dropping axes 1 and 2 of `(b, h, w, c)` leaves `(b, c)`, so that set is the cell of `(b, c)`.
-/
import proofs.«174999_j22754736734795_1_alg».proof.Proof.Gen.ReferenceIdeal.Read
import proofs.«174999_j22754736734795_1_alg».proof.Proof.PoolSpec
import Idealize.ShloMosaic.PureOps.Reduce
import Idealize.ShloMosaic.PureOps.Ideal.Laws

noncomputable section

namespace Cert.ReferenceIdeal.RefValue

open Cert.ReferenceIdeal Cert.ReferenceIdeal.Gen Cert.Pool
open Idealize.ShloMosaic Idealize.ShloMosaic.ValueIdx

/-- A source position drops to `j` exactly when it has `j`'s batch and channel. -/
theorem drop_eq_iff (i : S4.Idx) (j : S2.Idx) :
    Gen.reducesTo_S64x56x56x256_S64x256_d1_2.drop i = j ↔ ((i 0).val = (j 0).val ∧ (i 3).val = (j 1).val) := by
  have d0 : ((Gen.reducesTo_S64x56x56x256_S64x256_d1_2.drop i) 0 : Nat) = (i 0).val :=
    Gen.reducesTo_S64x56x56x256_S64x256_d1_2.drop_apply_val_of_eq i 0 0
  have d1 : ((Gen.reducesTo_S64x56x56x256_S64x256_d1_2.drop i) 1 : Nat) = (i 3).val :=
    Gen.reducesTo_S64x56x56x256_S64x256_d1_2.drop_apply_val_of_eq i 1 3
  constructor
  · intro h
    subst h
    exact ⟨d0.symm, d1.symm⟩
  · rintro ⟨h0, h1⟩
    funext a
    apply Fin.ext
    match a with
    | ⟨0, _⟩ => exact d0.trans h0
    | ⟨1, _⟩ => exact d1.trans h1

/-- The reference's result, as a function of its argument, is the pooled value from -inf. -/
theorem ref_eq (x : S4.Idx → EReal) : Read.val_main_v0 (F := Ideal) x = pooled negInf x := by
  funext j
  unfold Read.val_main_v0
  refine (Host.reduce_eq_fold (FloatOps.maximumf (F := Ideal) (φ := .f32)) x (Read.val_main_cst (F := Ideal))
    Gen.reducesTo_S64x56x56x256_S64x256_d1_2 Gen.h_S_ j).trans ?_
  show Finset.fold max negInf x (Finset.univ.filter fun i => Gen.reducesTo_S64x56x56x256_S64x256_d1_2.drop i = j)
    = Finset.fold max negInf x (cell j)
  refine congrArg (Finset.fold max negInf x) ?_
  unfold cell
  exact Finset.filter_congr fun i _ => drop_eq_iff i j

end Cert.ReferenceIdeal.RefValue

end
-- ==== Proof.lean ====
/-
  Global max pooling over the spatial axes: the Pallas kernel against `jnp.max(inputs, axis=(1, 2))`.

  The input is `x[b, h, w, c]`, 64 x 56 x 56 x 256. The reference takes, for every batch row `b` and channel `c`,
  the maximum of `x` over the 56 * 56 spatial positions, folded from -inf. The kernel flattens the two spatial axes
  into one of 3136 positions (the same row-major order, so nothing moves), cuts the flat axis in two halves of 1568
  and the batch axis in eight groups of eight rows, and walks the 8 x 2 grid keeping a running maximum per
  (row, channel) in an accumulator: reset to -inf at a group's first half, joined with each half's maximum, and
  written to the result after the second half. Over the extended reals `max` is associative, commutative and
  idempotent, so the running maximum through the two halves is the maximum over all 3136 positions: both programs
  compute the same function of `x`, at every entry, whatever the entries are (finite or not). No float constant
  differs: both sides start their folds from the same word for -inf.

  The three frames: the two kernel programs' are the generated frame runs; the reference's is its generated run with the
  result dropped. The idealization rewrote nothing, so that conjunct is `True`. For the value conjunct the kernel's result array is
  read off its frame run (KernelValue), the reference's result off its run (RefValue), and both are the pooled
  array of PoolSpec.
-/
import proofs.«174999_j22754736734795_1_alg».proof.Defs
import proofs.«174999_j22754736734795_1_alg».proof.Proof.Gen.Kernel
import proofs.«174999_j22754736734795_1_alg».proof.Proof.Gen.Kernel.Skeleton
import proofs.«174999_j22754736734795_1_alg».proof.Proof.Gen.Kernel.Launch
import proofs.«174999_j22754736734795_1_alg».proof.Proof.Gen.Kernel.Points
import proofs.«174999_j22754736734795_1_alg».proof.Proof.Gen.Kernel.Frame
import proofs.«174999_j22754736734795_1_alg».proof.Proof.Gen.KernelIdeal
import proofs.«174999_j22754736734795_1_alg».proof.Proof.Gen.KernelIdeal.Skeleton
import proofs.«174999_j22754736734795_1_alg».proof.Proof.Gen.KernelIdeal.Launch
import proofs.«174999_j22754736734795_1_alg».proof.Proof.Gen.KernelIdeal.Points
import proofs.«174999_j22754736734795_1_alg».proof.Proof.Gen.KernelIdeal.Frame
import proofs.«174999_j22754736734795_1_alg».proof.Proof.Gen.ReferenceIdeal
import proofs.«174999_j22754736734795_1_alg».proof.Proof.Gen.KernelIdeal.Value
import proofs.«174999_j22754736734795_1_alg».proof.Proof.Gen.ReferenceIdeal.Run
import proofs.«174999_j22754736734795_1_alg».proof.Proof.Gen.ReferenceIdeal.Read
import proofs.«174999_j22754736734795_1_alg».proof.Proof.Gen.Pre_finite_inputs
import proofs.«174999_j22754736734795_1_alg».proof.Proof.KernelValue
import proofs.«174999_j22754736734795_1_alg».proof.Proof.RefValue
import Idealize.ShloMosaic.Adequacy
import Idealize.ShloMosaic.Init

noncomputable section

namespace Cert.Proof

open Idealize.ShloMosaic Idealize.SL.Sem

/-- The word-level kernel runs and leaves its argument alone: the generated frame run. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its argument alone: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals the kernel's result array ends at the pooled array of its argument, and the reference's
    at its one reduction of an argument that agrees, which is the same pooled array. -/
theorem algebraic : Cert.algebraic_KernelIdeal_ReferenceIdeal := by
  intro m ρ m' ρ' _ hagree
  refine ⟨fun c => Cert.KernelIdeal.PoolValue.result m c, Cert.KernelIdeal.PoolValue.run m ρ, ?_⟩
  refine (θ_run Cert.ReferenceIdeal.defs _ _).mono (fun _ h c => ⟨(h c).1.trans ?_, (h c).2⟩)
    (Cert.ReferenceIdeal.Value.run (F := Ideal) m' ρ')
  rw [hagree c]
  exact Cert.ReferenceIdeal.RefValue.ref_eq _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
